-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x3 : Shape := ⟨3, ![32, 512, 3]⟩
abbrev S16384x256 : Shape := ⟨2, ![16384, 256]⟩
abbrev S256x256 : Shape := ⟨2, ![256, 256]⟩
abbrev S256 : Shape := ⟨1, ![256]⟩
abbrev S_ : Shape := ⟨0, ![]⟩

class Facts : Prop where
  bcast_S_S32x512x3 : S_.BroadcastsInDim S32x512x3 (![] : Fin 0 → Fin S32x512x3.rank)
  reducesTo_S32x512x3_S_d0_1_2 : S32x512x3.ReducesTo [0, 1, 2] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x512x3 .f32) (main_arg1 : FVec F S16384x256 .f32) (main_arg2 : FVec F S256x256 .f32) (main_arg3 : FVec F S256 .f32) : IVec S_ 1 :=
  let main_v0 : FVec F S32x512x3 .f32 := Host.absf main_arg0
  let main_cst : FVec F S_ .f32 := constant S_ .f32 0x7F800000#32
  let main_v1 : FVec F S32x512x3 .f32 := broadcastInDim S32x512x3 ![] bcast_S_S32x512x3 main_cst
  let main_v2 : IVec S32x512x3 1 := cmpf .olt main_v0 main_v1
  let main_c : IVec S_ 1 := constantI S_ 1 1#1
  let main_v3 : IVec S_ 1 := (fun x v => Host.reduce IntOp.andi x v reducesTo_S32x512x3_S_d0_1_2 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x512x3 : Shape := ⟨3, ![32, 512, 3]⟩
abbrev S16384x256 : Shape := ⟨2, ![16384, 256]⟩
abbrev S256x256 : Shape := ⟨2, ![256, 256]⟩
abbrev S256 : Shape := ⟨1, ![256]⟩
abbrev S32x512x256 : Shape := ⟨3, ![32, 512, 256]⟩
abbrev S1x256 : Shape := ⟨2, ![1, 256]⟩
abbrev S1x512x3 : Shape := ⟨3, ![1, 512, 3]⟩
abbrev S1x512x256 : Shape := ⟨3, ![1, 512, 256]⟩
abbrev S512x256 : Shape := ⟨2, ![512, 256]⟩
abbrev S512x3 : Shape := ⟨2, ![512, 3]⟩
abbrev S512x1 : Shape := ⟨2, ![512, 1]⟩
abbrev S1x512 : Shape := ⟨2, ![1, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S32x512x3, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S32x512x256, .f32⟩
  | .hbm, ⟨5, _⟩ => ⟨S256x256, .f32⟩
  | .hbm, ⟨6, _⟩ => ⟨S1x256, .f32⟩
  | .hbm, ⟨7, _⟩ => ⟨S32x512x256, .f32⟩
  | .hbm, ⟨8, _⟩ => ⟨S16384x256, .f32⟩
  | .local _ .vmem, ⟨0, _⟩ => ⟨S1x512x3, .f32⟩
  | .local _ .vmem, ⟨1, _⟩ => ⟨S1x512x3, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S1x256, .f32⟩
  | .local _ .vmem, ⟨6, _⟩ => ⟨S1x512x256, .f32⟩
  | .local _ .vmem, ⟨7, _⟩ => ⟨S1x512x256, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384x256_S32x512x256 : S16384x256.ShapeCasts S32x512x256
  transposes_S256x256_S256x256_1_0 : S256x256.Transposes [1, 0] S256x256
  shapeCasts_S256_S1x256 : S256.ShapeCasts S1x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x256_S1x512x256 : S512x256.ShapeCasts S1x512x256
  shapeCasts_S32x512x256_S16384x256 : S32x512x256.ShapeCasts S16384x256
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S32x512x3.size a
  hwx0_0 : ∀ i : grid0.Coords, EltTy.bits .f32 = 32 ∨ (Rect.block (s := S32x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S32x512x256.size a
  hwx0_4 : ∀ i : grid0.Coords, EltTy.bits .f32 = 32 ∨ (Rect.block (s := S32x512x256) S1x512x256.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x3 : Shape := ⟨3, ![32, 512, 3]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S32x512x256 : Shape := ⟨3, ![32, 512, 256]⟩
abbrev S32x512x1x3 : Shape := ⟨4, ![32, 512, 1, 3]⟩
abbrev S32x1x512x3 : Shape := ⟨4, ![32, 1, 512, 3]⟩
abbrev S32x512x512x3 : Shape := ⟨4, ![32, 512, 512, 3]⟩
abbrev S_ : Shape := ⟨0, ![]⟩
abbrev S32x512x512 : Shape := ⟨3, ![32, 512, 512]⟩
abbrev S512x512 : Shape := ⟨2, ![512, 512]⟩

abbrev nBuf : Space → Nat
  | .hbm => 68
  | .vmem => 0
  | .smem => 0
  | _ => 0

abbrev bufTy : (tb : Table) → Fin (tcTables nBuf tb) → BufTy
  | .hbm, ⟨0, _⟩ => ⟨S32x512x3, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S32x512x256, .f32⟩
  | .hbm, ⟨10, _⟩ => ⟨S32x512x1x3, .f32⟩
  | .hbm, ⟨11, _⟩ => ⟨S32x1x512x3, .f32⟩
  | .hbm, ⟨12, _⟩ => ⟨S32x512x512x3, .f32⟩
  | .hbm, ⟨13, _⟩ => ⟨S32x512x512x3, .f32⟩
  | .hbm, ⟨14, _⟩ => ⟨S32x512x512x3, .f32⟩
  | .hbm, ⟨15, _⟩ => ⟨S32x512x512x3, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S_, .f32⟩
  | .hbm, ⟨26, _⟩ => ⟨S_, .f32⟩
  | .hbm, ⟨27, _⟩ => ⟨S32x512x512, .i1⟩
  | .hbm, ⟨28, _⟩ => ⟨S32x512x512, .f32⟩
  | .hbm, ⟨29, _⟩ => ⟨S32x512x512, .f32⟩
  | .hbm, ⟨30, _⟩ => ⟨S_, .f32⟩
  | .hbm, ⟨31, _⟩ => ⟨S32x512x512, .f32⟩
  | .hbm, ⟨32, _⟩ => ⟨S32x512x512, .i1⟩
  | .hbm, ⟨33, _⟩ => ⟨S_, .f32⟩
  | .hbm, ⟨34, _⟩ => ⟨S32x512x512, .f32⟩
  | .hbm, ⟨35, _⟩ => ⟨S32x512x512, .f32⟩
  | .hbm, ⟨36, _⟩ => ⟨S_, .f32⟩
  | .hbm, ⟨37, _⟩ => ⟨S32x512x512, .f32⟩
  | .hbm, ⟨38, _⟩ => ⟨S32x512x512, .f32⟩
  | .hbm, ⟨39, _⟩ => ⟨S32x512x512, .f32⟩
  | .hbm, ⟨40, _⟩ => ⟨S_, .f32⟩
  | .hbm, ⟨41, _⟩ => ⟨S32x512x512, .f32⟩
  | .hbm, ⟨42, _⟩ => ⟨S32x512x512, .f32⟩
  | .hbm, ⟨43, _⟩ => ⟨S_, .f32⟩
  | .hbm, ⟨44, _⟩ => ⟨S32x512x512, .f32⟩
  | .hbm, ⟨45, _⟩ => ⟨S32x512x512, .f32⟩
  | .hbm, ⟨46, _⟩ => ⟨S_, .f32⟩
  | .hbm, ⟨47, _⟩ => ⟨S_, .f32⟩
  | .hbm, ⟨48, _⟩ => ⟨S32x512x512, .f32⟩
  | .hbm, ⟨49, _⟩ => ⟨S32x512x512, .f32⟩
  | .hbm, ⟨50, _⟩ => ⟨S_, .f32⟩
  | .hbm, ⟨51, _⟩ => ⟨S32x512x512, .f32⟩
  | .hbm, ⟨52, _⟩ => ⟨S32x512x512, .f32⟩
  | .hbm, ⟨53, _⟩ => ⟨S_, .f32⟩
  | .hbm, ⟨54, _⟩ => ⟨S32x512x512, .f32⟩
  | .hbm, ⟨55, _⟩ => ⟨S32x512x512, .f32⟩
  | .hbm, ⟨56, _⟩ => ⟨S32x512x512, .f32⟩
  | .hbm, ⟨57, _⟩ => ⟨S_, .f32⟩
  | .hbm, ⟨58, _⟩ => ⟨S_, .f32⟩
  | .hbm, ⟨59, _⟩ => ⟨S32x512x512, .i1⟩
  | .hbm, ⟨60, _⟩ => ⟨S32x512x512, .f32⟩
  | .hbm, ⟨61, _⟩ => ⟨S32x512x512, .f32⟩
  | .hbm, ⟨62, _⟩ => ⟨S32x512x256, .f32⟩
  | .hbm, ⟨63, _⟩ => ⟨S_, .f32⟩
  | .hbm, ⟨64, _⟩ => ⟨S32x512x256, .f32⟩
  | .hbm, ⟨65, _⟩ => ⟨S32x512x256, .f32⟩
  | .hbm, ⟨66, _⟩ => ⟨S32x512x256, .f32⟩
  | .hbm, ⟨67, _⟩ => ⟨S16384x256, .f32⟩
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x256_S32x512x256 : S16384x256.ShapeCasts S32x512x256
  bcast_S32x512x3_S32x512x1x3_0_1_3 : S32x512x3.BroadcastsInDim S32x512x1x3 (![0, 1, 3] : Fin 3 → Fin S32x512x1x3.rank)
  bcast_S32x512x3_S32x1x512x3_0_2_3 : S32x512x3.BroadcastsInDim S32x1x512x3 (![0, 2, 3] : Fin 3 → Fin S32x1x512x3.rank)
  bcast_S32x512x1x3_S32x512x512x3_0_1_2_3 : S32x512x1x3.BroadcastsInDim S32x512x512x3 (![0, 1, 2, 3] : Fin 4 → Fin S32x512x512x3.rank)
  bcast_S32x1x512x3_S32x512x512x3_0_1_2_3 : S32x1x512x3.BroadcastsInDim S32x512x512x3 (![0, 1, 2, 3] : Fin 4 → Fin S32x512x512x3.rank)
  reducesTo_S32x512x512x3_S32x512x512_d3 : S32x512x512x3.ReducesTo [3] S32x512x512
  h_S_ : 0 < S_.numel
  bcast_S_S512x512 : S_.BroadcastsInDim S512x512 (![] : Fin 0 → Fin S512x512.rank)
  bcast_S512x512_S32x512x512_1_2 : S512x512.BroadcastsInDim S32x512x512 (![1, 2] : Fin 2 → Fin S32x512x512.rank)
  bcast_S_S32x512x512 : S_.BroadcastsInDim S32x512x512 (![] : Fin 0 → Fin S32x512x512.rank)
  bcast_S_S32x512x256 : S_.BroadcastsInDim S32x512x256 (![] : Fin 0 → Fin S32x512x256.rank)
  shapeCasts_S32x512x256_S16384x256 : S32x512x256.ShapeCasts S16384x256
  dot_S16384x256_S256x256_S16384x256_1_0_0_1_n_n_wf : DotDims.WF S16384x256 S256x256 S16384x256 [1] [0] [0] [1] [] []
  dot_S32x512x512_S32x512x256_S32x512x256_2_1_1_2_0_0_wf : DotDims.WF S32x512x512 S32x512x256 S32x512x256 [2] [1] [1] [2] [0] [0]

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S32x512x512_S32x512x256_S32x512x256_2_1_1_2_0_0 : DotDims S32x512x512 S32x512x256 S32x512x256 where
  lhsContracting := [2]
  rhsContracting := [1]
  lhsNonContracting := [1]
  rhsNonContracting := [2]
  lhsBatch := [0]
  rhsBatch := [0]
  wf := dot_S32x512x512_S32x512x256_S32x512x256_2_1_1_2_0_0_wf

class Facts : Prop extends Facts₀ where

variable [Facts]
-- ==== Proof.Spec.lean ====
/-
  The pair potential with an exclusion radius, and the result both programs compute, over the extended reals.

  For 32 independent systems of 512 particles with positions `P[s, i, ·] ∈ ℝ³`, features `X[s·512 + i, ·] ∈ ℝ²⁵⁶`, a
  weight matrix `W` and a bias `b`:

    charge   q[s, i, f]  = (∑ₖ X[s·512 + i, k] · W[f, k]) + b[f]
    distance d²[s, i, j] = ((Pₓ[i] − Pₓ[j])² + (P_y[i] − P_y[j])²) + (P_z[i] − P_z[j])²,   d = √d² off the diagonal, 1 on it
    cutoff   c(d)        = ½ · (1 + cos (π̃ · d / 5)) where d < 5, else 0       (π̃ the single-precision word for π)
    potential v[s, i, j] = (1 / d) · (1 − c(d)) off the diagonal, 0 on it
    result   out[s, i, f] = (½ · ∑ⱼ v[s, i, j] · q[s, j, f]) · q[s, i, f].

  The diagonal is carried as the one-bit word `i = j` compares to, never decoded: the only fact about it that the
  two programs' agreement needs is that a choice by a bit commutes with any function, together with `√1 = 1`.
-/
import Idealize.ShloMosaic.PureOps.Ideal
import Idealize.ShloMosaic.PureOps.Ideal.Laws
import Idealize.ShloMosaic.Lib.ValueIdx

noncomputable section

open scoped BigOperators

namespace Cert.Coulomb

open Idealize.ShloMosaic Idealize.ShloMosaic.ValueIdx

/-- The shapes of the four arguments and of the result before it is flattened. -/
abbrev SPos : Shape := ⟨3, ![32, 512, 3]⟩
abbrev SFeat : Shape := ⟨2, ![16384, 256]⟩
abbrev SWt : Shape := ⟨2, ![256, 256]⟩
abbrev SBias : Shape := ⟨1, ![256]⟩
abbrev SOut : Shape := ⟨3, ![32, 512, 256]⟩

/-- The constants both programs spell, as the extended reals their single-precision words denote. -/
abbrev cOne : EReal := Ideal.ofBits .f32 0x3F800000#32
abbrev cZero : EReal := Ideal.ofBits .f32 0x00000000#32
abbrev cHalf : EReal := Ideal.ofBits .f32 0x3F000000#32
abbrev cFive : EReal := Ideal.ofBits .f32 0x40A00000#32
abbrev cPi : EReal := Ideal.ofBits .f32 0x40490FDB#32

/-- The word for `1.0` denotes `1`, and the word for `+0.0` denotes `0`. -/
theorem cOne_eq : cOne = 1 := by
  simp [Ideal.ofBits, Ideal.ieee, -EReal.coe_mul]; norm_num

theorem cZero_eq : cZero = 0 := Ideal.ofBits_zero_f32

/-- `√1 = 1` on the extended reals. -/
theorem sqrt_cOne : Ideal.sqrt cOne = cOne := by
  rw [cOne_eq]
  show Ideal.sqrt ((1 : ℝ) : EReal) = ((1 : ℝ) : EReal)
  rw [Ideal.sqrt_coe, if_neg (by norm_num), Real.sqrt_one]

/-- The diagonal bit of the pair `(i, j)`: the comparison of the two 32-bit row and column numbers. -/
def eye (i j : Fin 512) : BitVec 1 := IntOp.cmpi .eq (BitVec.ofNat 32 i.val) (BitVec.ofNat 32 j.val)

/-- A choice by a bit commutes with any function. -/
theorem select_map {α β : Type} (g : α → β) (e : BitVec 1) (a b : α) :
    g (Scalar.select e a b) = Scalar.select e (g a) (g b) := by
  unfold Scalar.select; split <;> rfl

/-- The squared distance of particles `i` and `j` of system `s`, the three squares added left to right. -/
def dsq (P : SPos.Idx → EReal) (s : Fin 32) (i j : Fin 512) : EReal :=
  (P (ix3 s i (0 : Fin 3)) - P (ix3 s j (0 : Fin 3))) * (P (ix3 s i (0 : Fin 3)) - P (ix3 s j (0 : Fin 3)))
    + (P (ix3 s i (1 : Fin 3)) - P (ix3 s j (1 : Fin 3))) * (P (ix3 s i (1 : Fin 3)) - P (ix3 s j (1 : Fin 3)))
    + (P (ix3 s i (2 : Fin 3)) - P (ix3 s j (2 : Fin 3))) * (P (ix3 s i (2 : Fin 3)) - P (ix3 s j (2 : Fin 3)))

/-- The distance with the diagonal replaced by `1`: the square root taken first, then the diagonal set. -/
def dist (e : BitVec 1) (d2 : EReal) : EReal := Scalar.select e cOne (Ideal.sqrt d2)

/-- Setting the diagonal of the squared distance to `1` first and taking the root afterwards gives the same distance. -/
theorem sqrt_select (e : BitVec 1) (d2 : EReal) : Ideal.sqrt (Scalar.select e cOne d2) = dist e d2 := by
  rw [select_map Ideal.sqrt, sqrt_cOne]; rfl

/-- The cosine cutoff inside the exclusion radius `5`. -/
def cutoff (d : EReal) : EReal :=
  Scalar.select (Ideal.cmp .olt d cFive) (cHalf * (cOne + Ideal.cos (Ideal.div (cPi * d) cFive))) cZero

/-- The pair potential at distance `d`, zero on the diagonal. -/
def pot (e : BitVec 1) (d : EReal) : EReal :=
  Scalar.select e cZero (Ideal.div cOne d * (cOne - cutoff d))

/-- Row `i` of system `s` in the flattened `[16384, ·]` arrays. -/
def row (s : Fin 32) (i : Fin 512) : Fin 16384 := ⟨s.val * 512 + i.val, by have := s.isLt; have := i.isLt; omega⟩

/-- The charge of particle `i` of system `s` in channel `f`: a linear map of its features. -/
def charge (X : SFeat.Idx → EReal) (W : SWt.Idx → EReal) (b : SBias.Idx → EReal) (s : Fin 32) (i : Fin 512) (f : Fin 256) : EReal :=
  (∑ k : Fin 256, X (ix2 (row s i) k) * W (ix2 f k)) + b (ix1 f)

/-- The result before flattening: the potential of every other particle of the system, weighted by its charge,
    halved, times the particle's own charge. -/
def out3 (P : SPos.Idx → EReal) (X : SFeat.Idx → EReal) (W : SWt.Idx → EReal) (b : SBias.Idx → EReal) : SOut.Idx → EReal :=
  fun y => (cHalf * ∑ j : Fin 512, pot (eye (y 1) j) (dist (eye (y 1) j) (dsq P (y 0) (y 1) j)) * charge X W b (y 0) j (y 2))
    * charge X W b (y 0) (y 1) (y 2)

theorem out3_apply (P : SPos.Idx → EReal) (X : SFeat.Idx → EReal) (W : SWt.Idx → EReal) (b : SBias.Idx → EReal)
    (s : Fin 32) (i : Fin 512) (f : Fin 256) :
    out3 P X W b (ix3 s i f)
      = (cHalf * ∑ j : Fin 512, pot (eye i j) (dist (eye i j) (dsq P s i j)) * charge X W b s j f) * charge X W b s i f := rfl

end Cert.Coulomb

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KernelPoint.lean ====
/-
  The kernel's body at one entry of its output block.

  At a grid point the body holds one system: its `[512, 3]` positions, its `[512, 256]` features, the transposed weights
  `[256, 256]` and the bias row `[1, 256]`. It forms the charges `q = features · Wᵀ + b` (a product into a zero
  accumulator, the bias row repeated down the rows), the coordinate columns and their transposes repeated to
  `[512, 512]`, the squared distances, the root with the diagonal first set to `1`, the cutoff and the `1/d` law, the
  zeroed diagonal, then `(½ · v · q) · q`. Every step is read here at an entry: the narrowing of the product's operands
  is the identity on the extended reals, a slice of one column followed by a repeat reads that column, and the root of
  the squared distance with its diagonal preset is the distance of the specification.
-/
import proofs.«129191_j51788715655672_1_alg».proof.Proof.Gen.KernelIdeal.Frame
import proofs.«129191_j51788715655672_1_alg».proof.Proof.Spec
import proofs.«129191_j51788715655672_1_alg».proof.Proof.LibDot
import proofs.«129191_j51788715655672_1_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators

namespace Cert.Coulomb.Kern

open Idealize.ShloMosaic Idealize.ShloMosaic.ValueIdx Cert.KernelIdeal Cert.KernelIdeal.Gen Cert.Coulomb

theorem hz3 : (![0, 0, 0] : Fin 3 → Nat) = fun _ => 0 := funext fun a => by fin_cases a <;> rfl
theorem hz2 : (![0, 0] : Fin 2 → Nat) = fun _ => 0 := funext fun a => by fin_cases a <;> rfl

/-- The charges of the point's system at `(j, f)`: row `j` of the features against column `f` of the transposed
    weights, plus the bias. -/
theorem pay2_apply (x1 : Vec Ideal S1x512x256 .f32) (x2 : Vec Ideal S256x256 .f32) (x3 : Vec Ideal S1x256 .f32)
    (j : Fin 512) (f : Fin 256) :
    k0_pay2 x1 x2 x3 (ix2 j f) = (∑ k : Fin 256, x1 (ix3 (0 : Fin 1) j k) * x2 (ix2 k f)) + x3 (ix2 (0 : Fin 1) f) := by
  unfold k0_pay2
  refine (addf_apply _ _ _).trans ?_
  congr 1
  · refine (Cert.LibDot.matmul_zero_apply _ rfl rfl rfl rfl rfl rfl none _ _ j f).trans ?_
    refine Finset.sum_congr rfl fun k _ => ?_
    congr 1
    · show shapeCast S512x256 x1 _ (ix2 j k) = _
      exact shapeCast_1ab_ab_apply x1 _ j k
    · show shapeCast S256x256 x2 _ (ix2 k f) = _
      exact congrFun (shapeCast_self x2 _) _
  · refine (broadcastTo_1b_ab_apply _ _ j f).trans ?_
    exact congrFun (shapeCast_self x3 _) _

/-- The diagonal mask at `(i, j)`: the row number compared with the column number. -/
theorem pay3_apply (i j : Fin 512) : k0_pay3 (ix2 i j) = eye i j := by
  unfold k0_pay3
  show IntOp.cmpi .eq (iota .tc S512x512 32 [0] _ (ix2 i j)) (iota .tc S512x512 32 [1] _ (ix2 i j)) = _
  rw [iota_single_apply, iota_single_apply]
  rfl

/-- Column `k` of the positions, repeated along the rows, reads at `(i, j)` particle `i`'s coordinate `k`. -/
theorem col_apply (x0 : Vec Ideal S1x512x3 .f32) (o : Nat) (k : Fin 3) (hk : k.val = o)
    (hs : S512x3.Slices ![0, o] S512x1) (i j : Fin 512) :
    broadcastTo S512x512 (extractStridedSlice S512x1 ![0, o] (shapeCast S512x3 x0 shapeCasts_S1x512x3_S512x3) hs)
      broadcasts_S512x1_S512x512 (ix2 i j) = x0 (ix3 (0 : Fin 1) i k) := by
  refine (broadcastTo_a1_ab_apply _ _ i j).trans ?_
  refine (slice2_axis1_apply o _ hs i (0 : Fin 1) k (by rw [hk]; rfl)).trans ?_
  exact shapeCast_1ab_ab_apply x0 _ i k

/-- The same column transposed to a row and repeated down the rows reads at `(i, j)` particle `j`'s coordinate `k`. -/
theorem row_apply (x0 : Vec Ideal S1x512x3 .f32) (o : Nat) (k : Fin 3) (hk : k.val = o)
    (hs : S512x3.Slices ![0, o] S512x1) (i j : Fin 512) :
    broadcastTo S512x512 (transpose S1x512 [1, 0]
        (extractStridedSlice S512x1 ![0, o] (shapeCast S512x3 x0 shapeCasts_S1x512x3_S512x3) hs) transposes_S512x1_p1_0_S1x512)
      broadcasts_S1x512_S512x512 (ix2 i j) = x0 (ix3 (0 : Fin 1) j k) := by
  refine (broadcastTo_1b_ab_apply _ _ i j).trans ?_
  refine (transpose_ix2_apply _ _ (0 : Fin 1) j).trans ?_
  refine (slice2_axis1_apply o _ hs j (0 : Fin 1) k (by rw [hk]; rfl)).trans ?_
  exact shapeCast_1ab_ab_apply x0 _ j k

/-- The squared distance of particles `i` and `j` from the point's block of positions. -/
def dsqB (x0 : Vec Ideal S1x512x3 .f32) (i j : Fin 512) : EReal :=
  (x0 (ix3 (0 : Fin 1) i (0 : Fin 3)) - x0 (ix3 (0 : Fin 1) j (0 : Fin 3))) * (x0 (ix3 (0 : Fin 1) i (0 : Fin 3)) - x0 (ix3 (0 : Fin 1) j (0 : Fin 3)))
    + (x0 (ix3 (0 : Fin 1) i (1 : Fin 3)) - x0 (ix3 (0 : Fin 1) j (1 : Fin 3))) * (x0 (ix3 (0 : Fin 1) i (1 : Fin 3)) - x0 (ix3 (0 : Fin 1) j (1 : Fin 3)))
    + (x0 (ix3 (0 : Fin 1) i (2 : Fin 3)) - x0 (ix3 (0 : Fin 1) j (2 : Fin 3))) * (x0 (ix3 (0 : Fin 1) i (2 : Fin 3)) - x0 (ix3 (0 : Fin 1) j (2 : Fin 3)))

/-- The kernel's distance at `(i, j)`: the root of the squared distance whose diagonal was first set to `1`. -/
theorem pay4_apply (x0 : Vec Ideal S1x512x3 .f32) (i j : Fin 512) :
    k0_pay4 x0 (ix2 i j) = dist (eye i j) (dsqB x0 i j) := by
  unfold k0_pay4
  show Ideal.sqrt (Scalar.select (k0_pay3 (ix2 i j)) cOne
    ((broadcastTo S512x512 _ _ (ix2 i j) - broadcastTo S512x512 _ _ (ix2 i j)) * (broadcastTo S512x512 _ _ (ix2 i j) - broadcastTo S512x512 _ _ (ix2 i j))
      + (broadcastTo S512x512 _ _ (ix2 i j) - broadcastTo S512x512 _ _ (ix2 i j)) * (broadcastTo S512x512 _ _ (ix2 i j) - broadcastTo S512x512 _ _ (ix2 i j))
      + (broadcastTo S512x512 _ _ (ix2 i j) - broadcastTo S512x512 _ _ (ix2 i j)) * (broadcastTo S512x512 _ _ (ix2 i j) - broadcastTo S512x512 _ _ (ix2 i j)))) = _
  rw [pay3_apply, sqrt_select,
    col_apply x0 0 (0 : Fin 3) rfl, row_apply x0 0 (0 : Fin 3) rfl,
    col_apply x0 1 (1 : Fin 3) rfl, row_apply x0 1 (1 : Fin 3) rfl,
    col_apply x0 2 (2 : Fin 3) rfl, row_apply x0 2 (2 : Fin 3) rfl]
  rfl

/-- The radius test, the distance scaled by the word for `π`, and the radius, at `(i, j)`, over the kernel's distance. -/
theorem pay5_apply (x0 : Vec Ideal S1x512x3 .f32) (i j : Fin 512) :
    k0_pay5 x0 (ix2 i j) = Ideal.cmp .olt (k0_pay4 x0 (ix2 i j)) cFive := rfl

theorem pay6_apply (x0 : Vec Ideal S1x512x3 .f32) (i j : Fin 512) :
    k0_pay6 x0 (ix2 i j) = cPi * k0_pay4 x0 (ix2 i j) := rfl

theorem pay7_apply (i j : Fin 512) : k0_pay7 (F := Ideal) (ix2 i j) = cFive := rfl

/-- The body's last value at entry `(0, i, f)` of the output block, over any charges, mask, distances, radius test,
    scaled distances and radius: half the potential-weighted sum of the charges, times the own charge. -/
theorem pay1_apply (v10 : FVec Ideal S512x256 .f32) (v35 : IVec S512x512 1) (v38 : FVec Ideal S512x512 .f32)
    (v40 : IVec S512x512 1) (v42 v43 : FVec Ideal S512x512 .f32) (i : Fin 512) (f : Fin 256) :
    k0_pay1 v10 v35 v38 v40 v42 v43 (ix3 (0 : Fin 1) i f)
      = (cHalf * ∑ j : Fin 512,
          Scalar.select (v35 (ix2 i j)) cZero (Ideal.div cOne (v38 (ix2 i j))
            * (cOne - Scalar.select (v40 (ix2 i j)) (cHalf * (cOne + Ideal.cos (Ideal.div (v42 (ix2 i j)) (v43 (ix2 i j))))) cZero))
          * v10 (ix2 j f)) * v10 (ix2 i f) := by
  unfold k0_pay1
  refine (shapeCast_ab_1ab_apply _ _ (0 : Fin 1) i f).trans ?_
  refine (mulf_apply _ _ _).trans ?_
  congr 1
  refine (mulf_apply _ _ _).trans ?_
  congr 1
  exact Cert.LibDot.matmul_zero_apply _ rfl rfl rfl rfl rfl rfl none _ _ i f

/-- THE BLOCK: when the point's four blocks are system `t`'s positions, its rows of the features, the transposed
    weights and the bias row, the body leaves in the output block, at `(0, i, f)`, the specification at `(t, i, f)`. -/
theorem out0_4_spec (P : SPos.Idx → EReal) (X : SFeat.Idx → EReal) (W : SWt.Idx → EReal) (b : SBias.Idx → EReal) (t : Fin 32)
    (x0 : Vec Ideal S1x512x3 .f32) (x1 : Vec Ideal S1x512x256 .f32) (x2 : Vec Ideal S256x256 .f32) (x3 : Vec Ideal S1x256 .f32)
    (h0 : ∀ (i : Fin 512) (k : Fin 3), x0 (ix3 (0 : Fin 1) i k) = P (ix3 t i k))
    (h1 : ∀ (j : Fin 512) (k : Fin 256), x1 (ix3 (0 : Fin 1) j k) = X (ix2 (row t j) k))
    (h2 : ∀ (k f : Fin 256), x2 (ix2 k f) = W (ix2 f k))
    (h3 : ∀ f : Fin 256, x3 (ix2 (0 : Fin 1) f) = b (ix1 f)) (i : Fin 512) (f : Fin 256) :
    out0_4 x0 x1 x2 x3 (ix3 (0 : Fin 1) i f) = out3 P X W b (ix3 t i f) := by
  have hq : ∀ j : Fin 512, k0_pay2 x1 x2 x3 (ix2 j f) = charge X W b t j f := fun j => by
    rw [pay2_apply]; unfold charge; simp only [h1, h2, h3]
  have hd : ∀ j : Fin 512, dsqB x0 i j = dsq P t i j := fun j => by
    unfold dsqB dsq; simp only [h0]
  unfold out0_4
  rw [View.canon_unit_zero hz3]
  simp only [View.ld_unit_zero (S := S1x512x256) hz3, View.ld_unit_zero (S := S256x256) hz2,
    View.ld_unit_zero (S := S1x256) hz2, View.ld_unit_zero (S := S1x512x3) hz3]
  rw [pay1_apply, out3_apply, hq]
  congr 2
  refine Finset.sum_congr rfl fun j _ => ?_
  rw [hq, pay3_apply, pay5_apply, pay6_apply, pay7_apply, pay4_apply, hd]
  rfl

/-- The same at any entry `y` of the block and any entry `z` of the whole result with system `t` and `y`'s row and channel. -/
theorem out0_4_at (P : SPos.Idx → EReal) (X : SFeat.Idx → EReal) (W : SWt.Idx → EReal) (b : SBias.Idx → EReal) (t : Fin 32)
    (x0 : Vec Ideal S1x512x3 .f32) (x1 : Vec Ideal S1x512x256 .f32) (x2 : Vec Ideal S256x256 .f32) (x3 : Vec Ideal S1x256 .f32)
    (h0 : ∀ (i : Fin 512) (k : Fin 3), x0 (ix3 (0 : Fin 1) i k) = P (ix3 t i k))
    (h1 : ∀ (j : Fin 512) (k : Fin 256), x1 (ix3 (0 : Fin 1) j k) = X (ix2 (row t j) k))
    (h2 : ∀ (k f : Fin 256), x2 (ix2 k f) = W (ix2 f k))
    (h3 : ∀ f : Fin 256, x3 (ix2 (0 : Fin 1) f) = b (ix1 f))
    (y : S1x512x256.Idx) (z : SOut.Idx) (hz0 : (z 0).val = t.val) (hz1 : (z 1).val = (y 1).val) (hz2 : (z 2).val = (y 2).val) :
    out0_4 x0 x1 x2 x3 y = out3 P X W b z := by
  have ey : y = ix3 (0 : Fin 1) (y 1) (y 2) := by
    funext a
    match a with
    | ⟨0, _⟩ => exact Subsingleton.elim (α := Fin 1) _ _
    | ⟨1, _⟩ => rfl
    | ⟨2, _⟩ => rfl
  have ez : z = ix3 t (y 1) (y 2) := by
    funext a
    match a with
    | ⟨0, _⟩ => exact Fin.ext hz0
    | ⟨1, _⟩ => exact Fin.ext hz1
    | ⟨2, _⟩ => exact Fin.ext hz2
  rw [ey, ez]
  exact out0_4_spec P X W b t x0 x1 x2 x3 h0 h1 h2 h3 (y 1) (y 2)

end Cert.Coulomb.Kern

end
-- ==== Proof.KernelValue.lean ====
/-
  From the kernel's blocks to its result array.

  The grid has one point per system. At point `t` the pipeline hands the body block `t` of the positions, block `t`
  of the features viewed as `[32, 512, 256]` (rows `t · 512 … t · 512 + 511` of the argument), the whole transposed
  weight matrix and the whole bias row, and writes the body's output block back as block `t` of a `[32, 512, 256]`
  array. The 32 blocks tile that array, so after the run it holds the specification `Cert.Coulomb.out3` of the four
  arguments at every entry; the last host operation flattens it to `[16384, 256]`.
-/
import proofs.«129191_j51788715655672_1_alg».proof.Proof.Gen.KernelIdeal.Frame
import proofs.«129191_j51788715655672_1_alg».proof.Proof.KernelPoint
import Idealize.ShloMosaic.Lib.Pipeline.Value
import Idealize.ShloMosaic.Lib.StableHlo.Run
import Idealize.ShloMosaic.Lib.ValueLayout

set_option maxRecDepth 16384

noncomputable section

namespace Cert.Coulomb.KernRun

open Idealize.ShloMosaic Idealize.ShloMosaic.TcCoe Idealize.SL.Sem Idealize.ShloMosaic.ValueIdx
open Idealize.ShloMosaic.Pipeline (Dat)
open Cert.KernelIdeal Cert.KernelIdeal.Gen Cert.Coulomb Cert.Coulomb.Kern

variable (m : (ℓ : Loc nD τ sig) → Buf (Elt Ideal) ℓ) (ρ : Dev nD → PrngReg)

/-- The four argument arrays as launched. -/
abbrev aP (c : Dev nD) : SPos.Idx → EReal := m ((c : Thread nD τ).loc main_arg0)
abbrev aX (c : Dev nD) : SFeat.Idx → EReal := m ((c : Thread nD τ).loc main_arg1)
abbrev aW (c : Dev nD) : SWt.Idx → EReal := m ((c : Thread nD τ).loc main_arg2)
abbrev aB (c : Dev nD) : SBias.Idx → EReal := m ((c : Thread nD τ).loc main_arg3)

/-! ## The arrays the region finds -/

/-- The features viewed as `[32, 512, 256]`. -/
theorem V_feat (c : Dev nD) :
    (V m c main_v0 : S32x512x256.Idx → EReal) = shapeCast S32x512x256 (aX m c) shapeCasts_S16384x256_S32x512x256 := by
  show StableHlo.after hostOps0 (fun b => m (c, b)) (Proc.devRef .tc main_v0) = _
  after_results
  rfl

/-- The transposed weights. -/
theorem V_wt (c : Dev nD) :
    (V m c main_v1 : S256x256.Idx → EReal) = transpose S256x256 [1, 0] (aW m c) transposes_S256x256_S256x256_1_0 := by
  show StableHlo.after hostOps0 (fun b => m (c, b)) (Proc.devRef .tc main_v1) = _
  after_results

/-- The bias as a row. -/
theorem V_bias (c : Dev nD) :
    (V m c main_v2 : S1x256.Idx → EReal) = shapeCast S1x256 (aB m c) shapeCasts_S256_S1x256 := by
  show StableHlo.after hostOps0 (fun b => m (c, b)) (Proc.devRef .tc main_v2) = _
  after_results
  rfl

/-! ## The windows' blocks -/

/-- The printed index maps over the grid: the positions', the features' and the output's block numbers are
    `(t, 0, 0)`; the weights' and the bias' are `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The system a grid point works on. -/
def sysOf (t : Fin cfg0.N) : Fin 32 := ⟨t.val, lt_of_lt_of_eq t.isLt N_0⟩

/-- Block `t` of the positions is system `t`'s positions. -/
theorem iblk0_apply (c : Dev nD) (t : Fin cfg0.N) (i : Fin 512) (k : Fin 3) :
    (iblk m c 0 t : Vec Ideal S1x512x3 .f32) (ix3 (0 : Fin 1) i k) = aP m c (ix3 (sysOf t) i k) := by
  obtain ⟨e0, e1, e2, -⟩ := idx_facts t
  unfold iblk
  rw [View.read_apply]
  show V m c main_arg0 _ = _
  rw [V_main_arg0]
  show aP m c _ = aP m c _
  congr 1
  funext a; apply Fin.ext
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 3 + 1 * k.val = k.val; omega

/-- Block `t` of the reshaped features is rows `t · 512 + j` of the argument. -/
theorem iblk1_apply (c : Dev nD) (t : Fin cfg0.N) (j : Fin 512) (k : Fin 256) :
    (iblk m c 1 t : Vec Ideal S1x512x256 .f32) (ix3 (0 : Fin 1) j k) = aX m c (ix2 (row (sysOf t) j) k) := by
  obtain ⟨-, -, -, e0, e1, e2, -⟩ := idx_facts t
  unfold iblk
  rw [View.read_apply]
  show V m c main_v0 _ = _
  rw [V_feat]
  refine shapeCast_apply _ _ _ _ ?_
  rw [Shape.rowMajor_val_two, Shape.rowMajor_val_three]
  show (t.val * 512 + j.val) * 256 + k.val
    = ((win0_1.index t (0 : Fin 3) * 1 + 1 * 0) * 512 + (win0_1.index t (1 : Fin 3) * 512 + 1 * j.val)) * 256
      + (win0_1.index t (2 : Fin 3) * 256 + 1 * k.val)
  omega

/-- The weights' one block is the transposed matrix. -/
theorem iblk2_apply (c : Dev nD) (t : Fin cfg0.N) (k f : Fin 256) :
    (iblk m c 2 t : Vec Ideal S256x256 .f32) (ix2 k f) = aW m c (ix2 f k) := by
  obtain ⟨-, -, -, -, -, -, e0, e1, -⟩ := idx_facts t
  unfold iblk
  rw [View.read_apply]
  show V m c main_v1 _ = _
  rw [V_wt]
  refine (congrArg _ ?_).trans (transpose_ix2_apply (aW m c) _ k f)
  funext a; apply Fin.ext
  match a with
  | ⟨0, _⟩ => show win0_2.index t (0 : Fin 2) * 256 + 1 * k.val = k.val; omega
  | ⟨1, _⟩ => show win0_2.index t (1 : Fin 2) * 256 + 1 * f.val = f.val; omega

/-- The bias' one block is the bias as a row. -/
theorem iblk3_apply (c : Dev nD) (t : Fin cfg0.N) (f : Fin 256) :
    (iblk m c 3 t : Vec Ideal S1x256 .f32) (ix2 (0 : Fin 1) f) = aB m c (ix1 f) := by
  obtain ⟨-, -, -, -, -, -, -, -, e0, e1, -⟩ := idx_facts t
  unfold iblk
  rw [View.read_apply]
  show V m c main_v2 _ = _
  rw [V_bias]
  refine (congrArg _ ?_).trans (shapeCast_a_1a_apply (aB m c) _ (0 : Fin 1) f)
  funext a; apply Fin.ext
  match a with
  | ⟨0, _⟩ => show win0_3.index t (0 : Fin 2) * 1 + 1 * 0 = 0; omega
  | ⟨1, _⟩ => show win0_3.index t (1 : Fin 2) * 256 + 1 * f.val = f.val; omega

/-! ## What a point writes back, and the array after the run -/

/-- WHAT POINT `t` WRITES BACK is block `t` of the specification of the argument arrays. -/
theorem flushed_eq (c : Dev nD) (t : Fin cfg0.N) :
    (dats m 0 c).flushed 4 t
      = ((cfg0.win 4).blk t).view.read (Elt Ideal) (out3 (aP m c) (aX m c) (aW m c) (aB m c)) := by
  obtain ⟨-, -, -, -, -, -, -, -, -, -, e0, e1, e2⟩ := idx_facts t
  show (cfg0.win 4).cut (grid0.coords t) ((dats m 0 c).after 4 t) = _
  rw [after0_4]
  funext y
  show out0_4 (iblk m c 0 t) (iblk m c 1 t) (iblk m c 2 t) (iblk m c 3 t) y
    = out3 (aP m c) (aX m c) (aW m c) (aB m c) (((cfg0.win 4).blk t).view.emb y)
  have hy : (y 0).val < 1 := (y 0).isLt
  refine out0_4_at (aP m c) (aX m c) (aW m c) (aB m c) (sysOf t) _ _ _ _
    (iblk0_apply m c t) (iblk1_apply m c t) (iblk2_apply m c t) (iblk3_apply m c t) y _ ?_ ?_ ?_
  · show win0_4.index t (0 : Fin 3) * 1 + 1 * (y 0).val = t.val; omega
  · show win0_4.index t (1 : Fin 3) * 512 + 1 * (y 1).val = (y 1).val; omega
  · show win0_4.index t (2 : Fin 3) * 256 + 1 * (y 2).val = (y 2).val; omega

/-- An entry of the result is in point `t`'s block iff each coordinate is in the block's range on its axis. -/
theorem mem_blk (t : Fin cfg0.N) (i : S32x512x256.Idx) :
    i ∈ ((cfg0.win 4).blk t).view.set ↔ ∀ a : Fin 3, win0_4.index t a * S1x512x256.size a ≤ (i a).val
      ∧ (i a).val < win0_4.index t a * S1x512x256.size a + S1x512x256.size a := by
  show i ∈ ((View.whole main_v3).slice (win0_4.rect t)).set ↔ _
  rw [View.set_slice_whole, Rect.mem_set_unit]
  exact Iff.rfl

/-- Every entry `(s, i, f)` of the result is in point `s`'s block. -/
theorem cover (i : S32x512x256.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 256 := (i 2).isLt
  have ht : (i 0).val < cfg0.N := lt_of_lt_of_eq h0 N_0.symm
  obtain ⟨-, -, -, -, -, -, -, -, -, -, e0, e1, e2⟩ := idx_facts ⟨(i 0).val, ht⟩
  have e0' : win0_4.index ⟨(i 0).val, ht⟩ (0 : Fin 3) = (i 0).val := e0
  refine ⟨⟨(i 0).val, ht⟩, flush0_4 _, ?_⟩
  rw [mem_blk]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    rw [e0']; omega
  | ⟨1, _⟩ =>
    show win0_4.index ⟨(i 0).val, ht⟩ (1 : Fin 3) * 512 ≤ (i 1).val ∧ (i 1).val < win0_4.index ⟨(i 0).val, ht⟩ (1 : Fin 3) * 512 + 512
    rw [e1]; omega
  | ⟨2, _⟩ =>
    show win0_4.index ⟨(i 0).val, ht⟩ (2 : Fin 3) * 256 ≤ (i 2).val ∧ (i 2).val < win0_4.index ⟨(i 0).val, ht⟩ (2 : Fin 3) * 256 + 256
    rw [e2]; omega

/-- THE ARRAY after the run: the specification of the argument arrays. -/
theorem final (c : Dev nD) :
    (dats m 0 c).arrAt 4 cfg0.N = out3 (aP m c) (aX m c) (aW m c) (aB m c) :=
  (dats m 0 c).arrAt_eq_of_cover 4 (out3 (aP m c) (aX m c) (aW m c) (aB m c)) (fun t _ => flushed_eq m c t) cover

/-! ## The flattening after the region, and the run -/

/-- The result: the specification flattened to `[16384, 256]`. -/
abbrev result (c : Dev nD) : S16384x256.Idx → EReal :=
  shapeCast S16384x256 (out3 (aP m c) (aX m c) (aW m c) (aB m c)) shapeCasts_S32x512x256_S16384x256

/-- The one host operation after the region flattens the array the region wrote. -/
theorem tail_result (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [(Pipeline.withArrays_arr spec0 launch0.win.arr_inj c _ _ 4).trans (final m c)]
  rfl

/-- The run, read: every weakly fair execution ends with the result array at the flattened specification of the
    argument arrays, and the arguments as launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Coulomb.KernRun

end
-- ==== Proof.RefValue.lean ====
/-
  The reference program's result before its last reshape is the specification `Cert.Coulomb.out3`.

  The reference works on whole arrays: it forms all coordinate differences `P[s, i, ·] − P[s, j, ·]` as a rank-4 array,
  squares and sums them over the last axis (a reduction started at `0`), takes the root, sets the diagonal to `1`,
  applies the cutoff and the `1/d` law, zeroes the diagonal, contracts the potential with the charges system by
  system, halves, and multiplies by the charges. Read at one entry each stage is the matching stage of the
  specification; the reduction's start `0` is absorbed, and the rows of the flattened charge matrix are
  `s · 512 + i`.
-/
import proofs.«129191_j51788715655672_1_alg».proof.Proof.Gen.ReferenceIdeal.Read
import proofs.«129191_j51788715655672_1_alg».proof.Proof.Spec

set_option maxRecDepth 16384

noncomputable section

open scoped BigOperators

namespace Cert.Coulomb.Ref

open Idealize.ShloMosaic Idealize.ShloMosaic.ValueIdx Cert.ReferenceIdeal Cert.ReferenceIdeal.Read Cert.Coulomb

variable (x0 : SPos.Idx → EReal) (x1 : SFeat.Idx → EReal) (x2 : SWt.Idx → EReal) (x3 : SBias.Idx → EReal)

/-- The reference's diagonal mask at `(i, j)`: its row numbers have `0` added, which changes nothing. -/
theorem eye_ref (i j : Fin 512) : val_main_v18 (F := Ideal) (ix2 i j) = eye i j := by
  rw [val_main_v18_apply, val_main_v17_apply, val_main_v14_apply, val_main_v15_apply, val_main_v16_apply, val_main_c_apply]
  show IntOp.cmpi .eq (BitVec.ofNat 32 i.val + 0#32) (BitVec.ofNat 32 j.val) = _
  rw [BitVec.add_zero]; rfl

/-- The coordinate difference the reference squares, at `(s, i, j, k)`. -/
theorem diff_ref (s : Fin 32) (i j : Fin 512) (k : Fin 3) :
    val_main_v10 (F := Ideal) x0 (idx_main_v12 (ix3 s i j) k) = x0 (ix3 s i k) - x0 (ix3 s j k) := by
  rw [val_main_v10_apply, val_main_v8_apply, val_main_v9_apply, val_main_v6_apply, val_main_v7_apply]
  show x0 _ - x0 _ = _
  congr 2 <;> (funext a; match a with | ⟨0, _⟩ => rfl | ⟨1, _⟩ => rfl | ⟨2, _⟩ => rfl)

/-- The reference's sum of squares over the coordinate axis, started at `0`, is the squared distance. -/
theorem dsq_ref (s : Fin 32) (i j : Fin 512) : val_main_v12 (F := Ideal) x0 (ix3 s i j) = dsq x0 s i j := by
  rw [val_main_v12_apply, val_main_cst_apply, Fin.sum_univ_three]
  simp only [val_main_v11_apply, diff_ref]
  show Ideal.ofBits .f32 0x00000000#32 + _ = _
  rw [Ideal.ofBits_zero_f32, zero_add]
  rfl

/-- The reference's distance with the diagonal set to `1`. -/
theorem dist_ref (s : Fin 32) (i j : Fin 512) :
    val_main_v19 (F := Ideal) x0 (ix3 s i j) = dist (eye i j) (dsq x0 s i j) := by
  rw [val_main_v19_apply, val_main_call0_v1_apply, val_main_call0_v2_apply, val_main_call0_v0_apply, val_main_cst_0_apply,
    val_main_v13_apply, dsq_ref]
  have e : idx_main_call0_v1 (ix3 s i j) = ix2 i j := by
    funext a; match a with | ⟨0, _⟩ => rfl | ⟨1, _⟩ => rfl
  rw [e, eye_ref]
  rfl

/-- The reference's potential at `(s, i, j)`. -/
theorem pot_ref (s : Fin 32) (i j : Fin 512) :
    val_main_v37 (F := Ideal) x0 (ix3 s i j) = pot (eye i j) (dist (eye i j) (dsq x0 s i j)) := by
  rw [val_main_v37_apply, val_main_call2_v1_apply, val_main_call2_v2_apply, val_main_call2_v0_apply, val_main_cst_9_apply,
    val_main_v36_apply, val_main_v33_apply, val_main_v32_apply, val_main_cst_7_apply,
    val_main_v35_apply, val_main_v34_apply, val_main_cst_8_apply,
    val_main_v31_apply, val_main_v21_apply, val_main_v20_apply, val_main_cst_1_apply,
    val_main_v30_apply, val_main_v29_apply, val_main_cst_5_apply,
    val_main_v28_apply, val_main_v27_apply, val_main_cst_4_apply,
    val_main_v26_apply, val_main_v25_apply, val_main_v24_apply, val_main_cst_3_apply,
    val_main_v23_apply, val_main_v22_apply, val_main_cst_2_apply,
    val_main_call1_v1_apply, val_main_call1_v0_apply, val_main_cst_6_apply]
  have e : idx_main_call2_v1 (ix3 s i j) = ix2 i j := by
    funext a; match a with | ⟨0, _⟩ => rfl | ⟨1, _⟩ => rfl
  rw [e, eye_ref]
  simp only [dist_ref]
  rfl

/-- The reference's charges after their reshape to `[32, 512, 256]`, at `(s, j, f)`. -/
theorem charge_ref (s : Fin 32) (j : Fin 512) (f : Fin 256) :
    val_main_v5 (F := Ideal) x1 x2 x3 (ix3 s j f) = charge x1 x2 x3 s j f := by
  have hf := f.isLt
  rw [val_main_v5_apply, val_main_v4_apply, val_main_v1_apply, val_main_v3_apply, val_main_v2_apply]
  show (∑ k : Fin 256, _) + _ = _
  unfold charge
  congr 1
  · refine Finset.sum_congr rfl fun k _ => ?_
    rw [val_main_v0_apply]
    congr 2
    · funext a
      match a with
      | ⟨0, _⟩ => exact Fin.ext (by show ((s.val * 512 + j.val) * 256 + f.val) / 256 = s.val * 512 + j.val; omega)
      | ⟨1, _⟩ => rfl
    · funext a
      match a with
      | ⟨0, _⟩ => exact Fin.ext (by show ((s.val * 512 + j.val) * 256 + f.val) % 256 = f.val; omega)
      | ⟨1, _⟩ => rfl
  · congr 1
    funext a
    match a with
    | ⟨0, _⟩ => exact Fin.ext (by show ((s.val * 512 + j.val) * 256 + f.val) % 256 = f.val; omega)

/-- The reference's result before its last reshape is the specification. -/
theorem out3_ref : val_main_v41 (F := Ideal) x0 x1 x2 x3 = out3 x0 x1 x2 x3 := by
  funext y
  obtain ⟨s, i, f, rfl⟩ : ∃ (s : Fin 32) (i : Fin 512) (f : Fin 256), y = ix3 s i f := ⟨y 0, y 1, y 2, eq_ix3 y⟩
  rw [out3_apply, val_main_v41_apply, val_main_v40_apply, val_main_v39_apply, val_main_cst_10_apply, val_main_v38_apply, charge_ref]
  show (Ideal.ofBits .f32 0x3F000000#32 * _) * _ = _
  congr 2
  refine Finset.sum_congr rfl fun k _ => ?_
  have el : lidx_main_v38 (ix3 s i f) k = ix3 s i k := by
    funext a; match a with | ⟨0, _⟩ => rfl | ⟨1, _⟩ => rfl | ⟨2, _⟩ => rfl
  have er : ridx_main_v38 (ix3 s i f) k = ix3 s k f := by
    funext a; match a with | ⟨0, _⟩ => rfl | ⟨1, _⟩ => rfl | ⟨2, _⟩ => rfl
  rw [el, er, pot_ref, charge_ref]

end Cert.Coulomb.Ref

end
-- ==== Proof.lean ====
/-
  The certificate: a fused Coulomb-type pair potential with an exclusion radius, one system per grid point, against its
  whole-array reference, over the extended reals.

  Both programs compute, for 32 systems of 512 particles, the charges `q = X · Wᵀ + b`, the pair potential
  `v(d) = (1/d) · (1 − c(d))` of the pairwise distances with the cosine cutoff `c` inside radius `5` and the diagonal
  set to zero, and return `(½ · v · q) · q` flattened over systems (Proof/Spec.lean states this as one function `out3`
  of the four arguments). The kernel does it system by system, one grid point each, with the products' operands
  narrowed to half precision, which is the identity on the extended reals; the reference does it on whole arrays.
  The kernel's run is read off its frame run: each point writes back the specification's block (Proof/KernelPoint.lean,
  Proof/KernelValue.lean), the blocks tile the result, and the host flattens it. The reference's run is its operations
  read one at a time at an entry (Proof/RefValue.lean). The two differ only in where the diagonal of the distance is set
  to `1` (before or after the square root: `√1 = 1`), in the reduction's initial `0`, and in the tiling; no law used needs
  finite inputs, so the precondition is not opened. Nothing of the kernel is rewritten by the idealization, so
  `preserves` is trivial. The three frames are the generated frame runs.
-/
import proofs.«129191_j51788715655672_1_alg».proof.Defs
import proofs.«129191_j51788715655672_1_alg».proof.Proof.Gen.Kernel
import proofs.«129191_j51788715655672_1_alg».proof.Proof.Gen.Kernel.Skeleton
import proofs.«129191_j51788715655672_1_alg».proof.Proof.Gen.Kernel.Launch
import proofs.«129191_j51788715655672_1_alg».proof.Proof.Gen.Kernel.Points
import proofs.«129191_j51788715655672_1_alg».proof.Proof.Gen.Kernel.Frame
import proofs.«129191_j51788715655672_1_alg».proof.Proof.Gen.KernelIdeal
import proofs.«129191_j51788715655672_1_alg».proof.Proof.Gen.KernelIdeal.Skeleton
import proofs.«129191_j51788715655672_1_alg».proof.Proof.Gen.KernelIdeal.Launch
import proofs.«129191_j51788715655672_1_alg».proof.Proof.Gen.KernelIdeal.Points
import proofs.«129191_j51788715655672_1_alg».proof.Proof.Gen.KernelIdeal.Frame
import proofs.«129191_j51788715655672_1_alg».proof.Proof.Gen.ReferenceIdeal
import proofs.«129191_j51788715655672_1_alg».proof.Proof.Gen.Pre_finite_inputs
import proofs.«129191_j51788715655672_1_alg».proof.Proof.Gen.ReferenceIdeal.Run
import proofs.«129191_j51788715655672_1_alg».proof.Proof.Gen.ReferenceIdeal.Read
import proofs.«129191_j51788715655672_1_alg».proof.Proof.KernelValue
import proofs.«129191_j51788715655672_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the flattened specification of its arguments
    (Proof/KernelValue.lean) and the reference's at its last reshape of `val_main_v41`, which is the same
    specification of arguments that agree (Proof/RefValue.lean): one array. -/
theorem algebraic : Cert.algebraic_KernelIdeal_ReferenceIdeal := by
  intro m ρ m' ρ' _ hagree
  refine ⟨fun c => Cert.Coulomb.KernRun.result m c, Cert.Coulomb.KernRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  unfold Cert.ReferenceIdeal.Read.val_main_v42
  rw [Cert.Coulomb.Ref.out3_ref, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
